-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1280x2048 : Shape := ⟨2, ![1280, 2048]⟩
abbrev S64x1024x2048 : Shape := ⟨3, ![64, 1024, 2048]⟩
abbrev S_ : Shape := ⟨0, ![]⟩

class Facts : Prop where
  bcast_S_S1280x2048 : S_.BroadcastsInDim S1280x2048 (![] : Fin 0 → Fin S1280x2048.rank)
  reducesTo_S1280x2048_S_d0_1 : S1280x2048.ReducesTo [0, 1] S_
  h_S_ : 0 < S_.numel
  bcast_S_S64x1024x2048 : S_.BroadcastsInDim S64x1024x2048 (![] : Fin 0 → Fin S64x1024x2048.rank)
  reducesTo_S64x1024x2048_S_d0_1_2 : S64x1024x2048.ReducesTo [0, 1, 2] S_

variable [Facts]

def fn {F : FTy → Type} [FloatOps F] (main_arg0 : FVec F S1280x2048 .f32) (main_arg1 : FVec F S64x1024x2048 .f32) : IVec S_ 1 :=
  let main_v0 : FVec F S1280x2048 .f32 := Host.absf main_arg0
  let main_cst : FVec F S_ .f32 := constant S_ .f32 0x7F800000#32
  let main_v1 : FVec F S1280x2048 .f32 := broadcastInDim S1280x2048 ![] bcast_S_S1280x2048 main_cst
  let main_v2 : IVec S1280x2048 1 := cmpf .olt main_v0 main_v1
  let main_c : IVec S_ 1 := constantI S_ 1 1#1
  let main_v3 : IVec S_ 1 := (fun x v => Host.reduce IntOp.andi x v reducesTo_S1280x2048_S_d0_1 h_S_) main_v2 main_c
  let main_v4 : FVec F S64x1024x2048 .f32 := Host.absf main_arg1
  let main_cst_0 : FVec F S_ .f32 := constant S_ .f32 0x7F800000#32
  let main_v5 : FVec F S64x1024x2048 .f32 := broadcastInDim S64x1024x2048 ![] bcast_S_S64x1024x2048 main_cst_0
  let main_v6 : IVec S64x1024x2048 1 := cmpf .olt main_v4 main_v5
  let main_c_1 : IVec S_ 1 := constantI S_ 1 1#1
  let main_v7 : IVec S_ 1 := (fun x v => Host.reduce IntOp.andi x v reducesTo_S64x1024x2048_S_d0_1_2 h_S_) main_v6 main_c_1
  let main_v8 : IVec S_ 1 := andi main_v3 main_v7
  main_v8
-- ==== Kernel.lean ====
abbrev S1280x2048 : Shape := ⟨2, ![1280, 2048]⟩
abbrev S64x1024x2048 : Shape := ⟨3, ![64, 1024, 2048]⟩
abbrev S64x20x2048 : Shape := ⟨3, ![64, 20, 2048]⟩
abbrev S64x1x1024 : Shape := ⟨3, ![64, 1, 1024]⟩
abbrev S1x20x2048 : Shape := ⟨3, ![1, 20, 2048]⟩
abbrev S1x1024x2048 : Shape := ⟨3, ![1, 1024, 2048]⟩
abbrev S1x1x1024 : Shape := ⟨3, ![1, 1, 1024]⟩
abbrev S20x2048 : Shape := ⟨2, ![20, 2048]⟩
abbrev S1024x2048 : Shape := ⟨2, ![1024, 2048]⟩
abbrev S20x1024 : Shape := ⟨2, ![20, 1024]⟩
abbrev S1024 : Shape := ⟨1, ![1024]⟩
abbrev S1x1024 : Shape := ⟨2, ![1, 1024]⟩

abbrev nBuf : Space → Nat
  | .hbm => 4
  | .vmem => 6
  | .smem => 0
  | _ => 0

abbrev bufTy : (tb : Table) → Fin (tcTables nBuf tb) → BufTy
  | .hbm, ⟨0, _⟩ => ⟨S1280x2048, .f32⟩
  | .hbm, ⟨1, _⟩ => ⟨S64x1024x2048, .f32⟩
  | .hbm, ⟨2, _⟩ => ⟨S64x20x2048, .f32⟩
  | .hbm, ⟨3, _⟩ => ⟨S64x1x1024, .f32⟩
  | .local _ .vmem, ⟨0, _⟩ => ⟨S1x20x2048, .f32⟩
  | .local _ .vmem, ⟨1, _⟩ => ⟨S1x20x2048, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x1024, .f32⟩
  | .local _ .vmem, ⟨5, _⟩ => ⟨S1x1x1024, .f32⟩
  | _, _ => ⟨S1280x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x20x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1280x2048_S64x20x2048 : S1280x2048.ShapeCasts S64x20x2048
  inb_S1x20x2048_S1x20x2048_0_0_0 : ∀ a, (![0, 0, 0] : Fin 3 → Nat) a + S1x20x2048.size a ≤ S1x20x2048.size a
  h_S1x20x2048 : 0 < S1x20x2048.numel
  shapeCasts_S1x20x2048_S20x2048 : S1x20x2048.ShapeCasts S20x2048
  bitsLt_bf16_f32 : FTy.bits .bf16 < FTy.bits .f32
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  reduces_S20x1024_S1024 : S20x1024.Reduces [0] S1024
  shapeCasts_S1024_S1x1024 : S1024.ShapeCasts S1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  dot_S20x2048_S1024x2048_S20x1024_1_1_0_0_n_n_wf : DotDims.WF S20x2048 S1024x2048 S20x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x20x2048.size a ≤ S64x20x2048.size a
  hwx0_0 : ∀ i : grid0.Coords, EltTy.bits .f32 = 32 ∨ (Rect.block (s := S64x20x2048) S1x20x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S64x1024x2048.size a
  hwx0_1 : ∀ i : grid0.Coords, EltTy.bits .f32 = 32 ∨ (Rect.block (s := S64x1024x2048) S1x1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S64x1x1024.size a
  hwx0_2 : ∀ i : grid0.Coords, EltTy.bits .f32 = 32 ∨ (Rect.block (s := S64x1x1024) S1x1x1024.size (cc0_transform_2 i) (hinb0_2 i)).WholeWords (EltTy.packing .f32)

variable [Facts₀]

def dot_S20x2048_S1024x2048_S20x1024_1_1_0_0_n_n : DotDims S20x2048 S1024x2048 S20x1024 where
  lhsContracting := [1]
  rhsContracting := [1]
  lhsNonContracting := [0]
  rhsNonContracting := [0]
  lhsBatch := []
  rhsBatch := []
  wf := dot_S20x2048_S1024x2048_S20x1024_1_1_0_0_n_n_wf

abbrev win0_0 : Pipeline.Window sig grid0 :=
  Pipeline.Window.ofSpec (Memref.whole main_v0) S1x20x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1280x2048 : Shape := ⟨2, ![1280, 2048]⟩
abbrev S64x1024x2048 : Shape := ⟨3, ![64, 1024, 2048]⟩
abbrev S64x20x2048 : Shape := ⟨3, ![64, 20, 2048]⟩
abbrev S64x20x1024 : Shape := ⟨3, ![64, 20, 1024]⟩
abbrev S_ : Shape := ⟨0, ![]⟩
abbrev S64x1024 : Shape := ⟨2, ![64, 1024]⟩
abbrev S64x1x1024 : Shape := ⟨3, ![64, 1, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1280x2048, .f32⟩
  | .hbm, ⟨1, _⟩ => ⟨S64x1024x2048, .f32⟩
  | .hbm, ⟨2, _⟩ => ⟨S64x20x2048, .f32⟩
  | .hbm, ⟨3, _⟩ => ⟨S64x20x1024, .f32⟩
  | .hbm, ⟨4, _⟩ => ⟨S_, .f32⟩
  | .hbm, ⟨5, _⟩ => ⟨S64x1024, .f32⟩
  | .hbm, ⟨6, _⟩ => ⟨S64x1x1024, .f32⟩
  | _, _ => ⟨S1280x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  shapeCasts_S1280x2048_S64x20x2048 : S1280x2048.ShapeCasts S64x20x2048
  reducesTo_S64x20x1024_S64x1024_d1 : S64x20x1024.ReducesTo [1] S64x1024
  h_S_ : 0 < S_.numel
  bcast_S64x1024_S64x1x1024_0_2 : S64x1024.BroadcastsInDim S64x1x1024 (![0, 2] : Fin 2 → Fin S64x1x1024.rank)
  dot_S64x20x2048_S64x1024x2048_S64x20x1024_2_2_1_1_0_0_wf : DotDims.WF S64x20x2048 S64x1024x2048 S64x20x1024 [2] [2] [1] [1] [0] [0]

variable [Facts₀]

def dot_S64x20x2048_S64x1024x2048_S64x20x1024_2_2_1_1_0_0 : DotDims S64x20x2048 S64x1024x2048 S64x20x1024 where
  lhsContracting := [2]
  rhsContracting := [2]
  lhsNonContracting := [1]
  rhsNonContracting := [1]
  lhsBatch := [0]
  rhsBatch := [0]
  wf := dot_S64x20x2048_S64x1024x2048_S64x20x1024_2_2_1_1_0_0_wf

class Facts : Prop extends Facts₀ where

variable [Facts]
-- ==== Proof.LibMaxAxis.lean ====
/-
  Two readings at an index, over the extended reals, of a maximum taken along ONE axis:

  * `maxLead2_apply`: a `vector.multi_reduction <maximumf>` over axis 0 of a rank-2 vector [n0, n1], read at `q`, is the
    fold of `max` from the accumulator's value over `g : Fin n0` of the entries `(g, q)` — a column's maximum;
  * `hostMaxMid3_apply`: the host's one-operand `stablehlo.reduce` with a `maximum` body over the MIDDLE axis of a rank-3
    array [n0, n1, n2], read at `(b, l)`, is the fold of `max` from the initial value over `r : Fin n1` of the entries
    `(b, r, l)`.

  Both folds are over `Finset.univ`, so they are free of the order the reductions are carried out in; two of them over
  the same entries from the same start are equal by `Finset.fold_congr`.
-/
import Idealize.ShloMosaic.PureOps.Ideal.Laws
import Idealize.ShloMosaic.Lib.ValueIdx

noncomputable section

namespace Cert.Lib

open Idealize.ShloMosaic Idealize.ShloMosaic.ValueIdx

/-- The maximum over the leading axis of a rank-2 vector, read at `q`: the fold of `max`, from the accumulator's value,
    over `g` of the entries `(g, q)`. -/
theorem maxLead2_apply {n0 n1 : Nat} (src : FVec Ideal ⟨2, ![n0, n1]⟩ .f32) (acc : BitVec 32)
    (h : (⟨2, ![n0, n1]⟩ : Shape).Reduces [0] ⟨1, ![n1]⟩) (hφ : FKind.Formats .f32)
    (hacc : acc = FKind.maximumf.neutral .f32 hφ) (q : Fin n1) :
    multiReduction .maximumf [0] ⟨1, ![n1]⟩ src acc h hφ hacc (ix1 q)
      = (Finset.univ : Finset (Fin n0)).fold max (Ideal.ofBits .f32 acc) (fun g => src (ix2 g q)) := by
  refine (Ideal.multiReduction_maximumf_single src acc h hφ hacc (ix1 q)).trans ?_
  refine Finset.fold_congr fun g _ => congrArg src ?_
  funext a
  match a with
  | ⟨0, _⟩ => rfl
  | ⟨1, _⟩ => rfl

/-- The host's maximum over the middle axis of a rank-3 array, read at `(b, l)`: the fold of `max`, from the initial
    value, over `r` of the entries `(b, r, l)`. (`h` is the `Reduces` fact at the same shapes as the operation's
    `ReducesTo` fact `h'`; at literal shapes `by decide` gives it.) -/
theorem hostMaxMid3_apply {n0 n1 n2 : Nat} {u : Shape} (x : (⟨3, ![n0, n1, n2]⟩ : Shape).Idx → EReal) (init : u.Idx → EReal)
    (h' : (⟨3, ![n0, n1, n2]⟩ : Shape).ReducesTo [1] ⟨2, ![n0, n2]⟩) (h : (⟨3, ![n0, n1, n2]⟩ : Shape).Reduces [1] ⟨2, ![n0, n2]⟩)
    (hu : 0 < u.numel) (b : Fin n0) (l : Fin n2) :
    Host.reduce (FloatOps.maximumf (F := Ideal) (φ := .f32)) x init h' hu (ix2 b l)
      = (Finset.univ : Finset (Fin n1)).fold max (init (Shape.Idx.first hu)) (fun r => x (ix3 b r l)) := by
  refine (Host.reduce_eq_fold_single (FloatOps.maximumf (F := Ideal) (φ := .f32)) x init h' h hu (ix2 b l)).trans ?_
  refine Finset.fold_congr fun r _ => congrArg x ?_
  funext a
  match a with
  | ⟨0, _⟩ => rfl
  | ⟨1, _⟩ => rfl
  | ⟨2, _⟩ => rfl

end Cert.Lib

end
-- ==== Proof.LibLeadSumDotT.lean ====
/-
  Two readings at an index, over the extended reals, for kernels that sum a grouped operand over its LEADING axis and
  multiply a row block against the ROWS of a weight block (`x @ W.T`):

  * `sumLead3_apply` / `sumLead2_apply`: a `vector.multi_reduction <add>` over axis 0 of a rank-3 (rank-2) vector,
    read at `(r, k)` (at `q`), is the sum over `g` of the entries `(g, r, k)` (`(g, q)`);
  * `matmulT_apply`: a `tpu.matmul` into the zero accumulator whose dimension numbers contract axis 1 of BOTH operands
    (`DotDims.transposedRhs M K N`: lhs [M, K], rhs [N, K], out [M, N]), read at `(p, q)`, is
    `Σ k : Fin K, lhs (p, k) * rhs (q, k)`. A printed record `dot_S<M>x<K>_S<N>x<K>_S<M>x<N>_1_1_0_0_n_n` unifies with
    `DotDims.transposedRhs M K N` by unfolding, so the lemma applies to the printed payload by `exact` / `refine … .trans`.
-/
import Idealize.ShloMosaic.PureOps.Ideal.Laws
import Idealize.ShloMosaic.Lib.ValueIdx

noncomputable section

namespace Cert.Lib

open Idealize.ShloMosaic Idealize.ShloMosaic.ValueIdx

/-- The sum over the leading axis of a rank-3 vector, read at `(r, k)`: the sum over `g` of the entries `(g, r, k)`. -/
theorem sumLead3_apply {n0 n1 n2 : Nat} (src : FVec Ideal ⟨3, ![n0, n1, n2]⟩ .f32)
    (h : (⟨3, ![n0, n1, n2]⟩ : Shape).Reduces [0] ⟨2, ![n1, n2]⟩) (hφ : FKind.Formats .f32)
    (hacc : (0x00000000#32 : BitVec 32) = FKind.add.neutral .f32 hφ) (r : Fin n1) (k : Fin n2) :
    multiReduction .add [0] ⟨2, ![n1, n2]⟩ src 0x00000000#32 h hφ hacc (ix2 r k) = ∑ g : Fin n0, src (ix3 g r k) := by
  refine (Ideal.multiReduction_add_single src _ h hφ hacc (ix2 r k)).trans ?_
  refine Finset.sum_congr rfl fun g _ => congrArg src ?_
  funext a
  match a with
  | ⟨0, _⟩ => rfl
  | ⟨1, _⟩ => rfl
  | ⟨2, _⟩ => rfl

/-- The sum over the leading axis of a rank-2 vector, read at `q`: the sum over `g` of the entries `(g, q)`. -/
theorem sumLead2_apply {n0 n1 : Nat} (src : FVec Ideal ⟨2, ![n0, n1]⟩ .f32)
    (h : (⟨2, ![n0, n1]⟩ : Shape).Reduces [0] ⟨1, ![n1]⟩) (hφ : FKind.Formats .f32)
    (hacc : (0x00000000#32 : BitVec 32) = FKind.add.neutral .f32 hφ) (q : Fin n1) :
    multiReduction .add [0] ⟨1, ![n1]⟩ src 0x00000000#32 h hφ hacc (ix1 q) = ∑ g : Fin n0, src (ix2 g q) := by
  refine (Ideal.multiReduction_add_single src _ h hφ hacc (ix1 q)).trans ?_
  refine Finset.sum_congr rfl fun g _ => congrArg src ?_
  funext a
  match a with
  | ⟨0, _⟩ => rfl
  | ⟨1, _⟩ => rfl

/-! ## A product that contracts the second axis of both operands -/

/-- The left operand's row coordinate is the output's row. -/
theorem lhsT_0 {M K N : Nat} (j : (⟨2, ![M, N]⟩ : Shape).Idx) (k : (DotDims.transposedRhs M K N).contr.Idx) :
    ((DotDims.transposedRhs M K N).lhsIdx j k 0).val = (j 0).val := rfl
/-- The left operand's column coordinate is the contraction coordinate. -/
theorem lhsT_1 {M K N : Nat} (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k
/-- The right operand's row coordinate is the output's column. -/
theorem rhsT_0 {M K N : Nat} (j : (⟨2, ![M, N]⟩ : Shape).Idx) (k : (DotDims.transposedRhs M K N).contr.Idx) :
    ((DotDims.transposedRhs M K N).rhsIdx j k 0).val = (j 1).val := rfl
/-- The right operand's column coordinate is the contraction coordinate. -/
theorem rhsT_1 {M K N : Nat} (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- Into the zero accumulator, such a product read at `(p, q)` is the sum over `k` of `lhs (p, k) * rhs (q, k)`. -/
theorem matmulT_apply {M K N : Nat} {φ₁ φ₂ : FTy} (lhs : FVec Ideal ⟨2, ![M, K]⟩ φ₁) (rhs : FVec Ideal ⟨2, ![N, K]⟩ φ₂)
    (p : Fin M) (q : Fin N) :
    matmul (DotDims.transposedRhs M K N) none lhs rhs (constant (F := Ideal) ⟨2, ![M, N]⟩ .f32 0x00000000#32) (ix2 p q)
      = ∑ k : Fin K, lhs (ix2 p k) * rhs (ix2 q k) := by
  refine (Ideal.matmul_constant_zero_apply (DotDims.transposedRhs M K N) none lhs rhs (ix2 p q)).trans ?_
  rw [← Equiv.sum_comp (contrEquiv1 (DotDims.transposedRhs M K N) K rfl rfl).symm]
  refine Finset.sum_congr rfl fun k _ => ?_
  have hk := contrEquiv1_symm_val (DotDims.transposedRhs M K N) K rfl rfl k
  have hl : (DotDims.transposedRhs M K N).lhsIdx (ix2 p q) ((contrEquiv1 (DotDims.transposedRhs M K N) K rfl rfl).symm k) = ix2 p k := by
    funext a
    match a with
    | ⟨0, _⟩ => exact Fin.ext (lhsT_0 _ _)
    | ⟨1, _⟩ => exact Fin.ext ((lhsT_1 _ _).trans hk)
  have hr : (DotDims.transposedRhs M K N).rhsIdx (ix2 p q) ((contrEquiv1 (DotDims.transposedRhs M K N) K rfl rfl).symm k) = ix2 q k := by
    funext a
    match a with
    | ⟨0, _⟩ => exact Fin.ext (rhsT_0 _ _)
    | ⟨1, _⟩ => exact Fin.ext ((rhsT_1 _ _).trans hk)
  rw [hl, hr]

end Cert.Lib

end
-- ==== Proof.KernelBody.lean ====
/-
  What the kernel body stores at one grid point, read at an index.

  At a grid point the body holds a [1, 20, 2048] block of regions and a [1, 1024, 2048] block of words. It drops the
  leading unit axes, multiplies the region block against the ROWS of the word block (contracting the feature axis of
  both) into a zero accumulator, takes the maximum down each column of the [20, 1024] scores from minus infinity, and
  views the [1024] result as [1, 1, 1024]. A change of float format is the identity on the extended reals. So the
  stored block at `(0, 0, l)` is the fold of `max` over `r` of the dot products of region `r` with word `l`.
-/
import proofs.«127514_j1202590843020_1_alg».proof.Proof.Gen.KernelIdeal.Skeleton
import proofs.«127514_j1202590843020_1_alg».proof.Proof.LibMaxAxis
import proofs.«127514_j1202590843020_1_alg».proof.Proof.LibLeadSumDotT
import Idealize.ShloMosaic.Lib.Pipeline.Value

noncomputable section

namespace Cert.Pool.Ker

open Idealize.ShloMosaic Idealize.ShloMosaic.ValueIdx Cert.KernelIdeal Cert.KernelIdeal.Gen

/-- The region block with its unit axis dropped and its format changed, at `(r, k)`: the block at `(0, r, k)`. -/
theorem regions_at (v0 : Vec Ideal S1x20x2048 .f32) (r : Fin 20) (k : Fin 2048) :
    (truncf .bf16 (shapeCast S20x2048 v0 shapeCasts_S1x20x2048_S20x2048) bitsLt_bf16_f32 : FVec Ideal S20x2048 .bf16) (ix2 r k)
      = v0 (ix3 0 r k) := by
  refine (shapeCast_dropUnit_apply (n := 2) ![20, 2048] v0 shapeCasts_S1x20x2048_S20x2048 (ix2 r k)).trans (congrArg v0 ?_)
  funext a
  match a with
  | ⟨0, _⟩ => rfl
  | ⟨1, _⟩ => rfl
  | ⟨2, _⟩ => rfl

/-- The word block with its unit axis dropped and its format changed, at `(l, k)`: the block at `(0, l, k)`. -/
theorem words_at (v3 : Vec Ideal S1x1024x2048 .f32) (l : Fin 1024) (k : Fin 2048) :
    (truncf .bf16 (shapeCast S1024x2048 v3 shapeCasts_S1x1024x2048_S1024x2048) bitsLt_bf16_f32 : FVec Ideal S1024x2048 .bf16) (ix2 l k)
      = v3 (ix3 0 l k) := by
  refine (shapeCast_dropUnit_apply (n := 2) ![1024, 2048] v3 shapeCasts_S1x1024x2048_S1024x2048 (ix2 l k)).trans (congrArg v3 ?_)
  funext a
  match a with
  | ⟨0, _⟩ => rfl
  | ⟨1, _⟩ => rfl
  | ⟨2, _⟩ => rfl

/-- The stored block at `(0, 0, l)`: the largest, over the twenty regions `r` of the block, of the dot product of
    region `r` with word `l`. -/
theorem pay_apply (v0 : Vec Ideal S1x20x2048 .f32) (v3 : Vec Ideal S1x1024x2048 .f32) (z0 z1 : Fin 1) (l : Fin 1024) :
    k0_pay1 (F := Ideal) v0 v3 (ix3 z0 z1 l)
      = (Finset.univ : Finset (Fin 20)).fold max (Ideal.ofBits .f32 0xFF800000#32)
          (fun r => ∑ k : Fin 2048, v0 (ix3 0 r k) * v3 (ix3 0 l k)) := by
  unfold k0_pay1
  refine (shapeCast_addUnit_apply (n := 2) ![1, 1024] _ shapeCasts_S1x1024_S1x1x1024 (ix3 z0 z1 l)).trans ?_
  refine (shapeCast_addUnit_apply (n := 1) ![1024] _ shapeCasts_S1024_S1x1024 _).trans ?_
  have hj : (fun a : Fin 1 => (fun a' : Fin 2 => ix3 z0 z1 l a'.succ) a.succ) = ix1 l := by
    funext a
    match a with
    | ⟨0, _⟩ => rfl
  refine (congrArg _ hj).trans ?_
  refine (Cert.Lib.maxLead2_apply _ _ reduces_S20x1024_S1024 _ _ l).trans ?_
  refine Finset.fold_congr fun r _ => ?_
  refine (Cert.Lib.matmulT_apply (M := 20) (K := 2048) (N := 1024) _ _ r l).trans ?_
  refine Finset.sum_congr rfl fun k _ => ?_
  rw [regions_at, words_at]

end Cert.Pool.Ker

end
-- ==== Proof.Spec.lean ====
/-
  What both programs compute, as one function of the two argument arrays.

  The first argument is a table of 1280 = 64 · 20 region vectors of length 2048, twenty consecutive rows per batch entry;
  the second holds, per batch entry, 1024 word vectors of length 2048. For batch entry `b`, region `r` and word `l` the
  SCORE is the dot product of region row `20·b + r` with word `l` of entry `b`; the result at `(b, 0, l)` is the largest of
  the twenty scores, the maximum started from the value of the pattern `0xFF800000` (minus infinity).
-/
import Idealize.ShloMosaic.PureOps.Ideal.Laws
import Idealize.ShloMosaic.Lib.ValueIdx

noncomputable section

namespace Cert.Pool

open Idealize.ShloMosaic Idealize.ShloMosaic.ValueIdx

/-- The table of region vectors: 1280 rows of length 2048. -/
abbrev Regions : Type := (⟨2, ![1280, 2048]⟩ : Shape).Idx → EReal
/-- The word vectors: 64 batch entries of 1024 words of length 2048. -/
abbrev Words : Type := (⟨3, ![64, 1024, 2048]⟩ : Shape).Idx → EReal

/-- The table row that holds region `r` of batch entry `b`. -/
def row (b : Fin 64) (r : Fin 20) : Fin 1280 := ⟨b.val * 20 + r.val, by have := b.isLt; have := r.isLt; omega⟩

theorem row_val (b : Fin 64) (r : Fin 20) : (row b r).val = b.val * 20 + r.val := rfl

/-- The score of region `r` against word `l` in batch entry `b`: their dot product over the 2048 features. -/
def score (x0 : Regions) (x1 : Words) (b : Fin 64) (r : Fin 20) (l : Fin 1024) : EReal :=
  ∑ k : Fin 2048, x0 (ix2 (row b r) k) * x1 (ix3 b l k)

/-- The best score of word `l` over the twenty regions of batch entry `b`. -/
def pooled (x0 : Regions) (x1 : Words) (b : Fin 64) (l : Fin 1024) : EReal :=
  (Finset.univ : Finset (Fin 20)).fold max (Ideal.ofBits .f32 0xFF800000#32) (fun r => score x0 x1 b r l)

/-- The result array [64, 1, 1024]: at `(b, 0, l)` the best score of word `l` in batch entry `b`. -/
def G (x0 : Regions) (x1 : Words) : (⟨3, ![64, 1, 1024]⟩ : Shape).Idx → EReal :=
  fun i => pooled x0 x1 (i 0) (i 2)

theorem G_apply (x0 : Regions) (x1 : Words) (b : Fin 64) (z : Fin 1) (l : Fin 1024) :
    G x0 x1 (ix3 b z l) = pooled x0 x1 b l := rfl

end Cert.Pool

end
-- ==== Proof.KernelSide.lean ====
/-
  The kernel's result array is the specification `Pool.G`.

  Grid point `t` works on batch entry `t`: every window's block index there is `(t, 0, 0)`. Its region block is rows
  `(t, ·, ·)` of the region table reshaped to [64, 20, 2048] (which the program's first operation writes: entry
  `(b, r, k)` is entry `(20·b + r, k)` of the table), its word block is entry `t` of the words, and what it writes back is
  block `t` of the result. By the body's value at an index that block is block `t` of `G`; the 64 blocks tile the result
  array, so the array ends holding `G` of the arguments.
-/
import proofs.«127514_j1202590843020_1_alg».proof.Proof.Gen.KernelIdeal.Value
import proofs.«127514_j1202590843020_1_alg».proof.Proof.KernelBody
import proofs.«127514_j1202590843020_1_alg».proof.Proof.Spec
import Idealize.ShloMosaic.Lib.StableHlo.Run

noncomputable section

namespace Cert.Pool.Ker

open Idealize.ShloMosaic Idealize.ShloMosaic.TcCoe Idealize.ShloMosaic.ValueIdx Idealize.SL.Sem
open Cert.KernelIdeal Cert.KernelIdeal.Gen Cert.KernelIdeal.Value Cert.Pool
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl

/-- Every window's block index at grid point `t` is `(t, 0, 0)` (decided over the 64 points). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The batch entry grid point `t` works on. -/
def entry (t : Fin cfg0.N) : Fin 64 := ⟨t.val, lt_of_lt_of_eq t.isLt N_0⟩

theorem entry_val (t : Fin cfg0.N) : (entry t).val = t.val := rfl

/-! ## The arrays the region finds -/

/-- The region finds, in the first window's array, the region table reshaped to [64, 20, 2048]. -/
theorem V_main_v0 (c : Dev nD) :
    (V m c main_v0 : S64x20x2048.Idx → EReal)
      = shapeCast S64x20x2048 (m ((c : Thread nD τ).loc main_arg0)) shapeCasts_S1280x2048_S64x20x2048 := by
  dsimp only [V, hostOps0]; after_results; rfl

/-- Entry `(b, r, k)` of the reshaped table is entry `(20·b + r, k)` of the table. -/
theorem reshaped_at (x0 : Regions) (b : Fin 64) (r : Fin 20) (k : Fin 2048) :
    shapeCast S64x20x2048 x0 shapeCasts_S1280x2048_S64x20x2048 (ix3 b r k) = x0 (ix2 (row b r) k) := by
  refine shapeCast_apply x0 shapeCasts_S1280x2048_S64x20x2048 (ix3 b r k) (ix2 (row b r) k) ?_
  rewrite [Shape.rowMajor_val_two, Shape.rowMajor_val_three]
  rfl

/-! ## The blocks at a grid point -/

/-- The region block at point `t`, at `(0, r, k)`: row `20·t + r` of the table at feature `k`. -/
theorem regions_blk (c : Dev nD) (t : Fin cfg0.N) (r : Fin 20) (k : Fin 2048) :
    iblk m c 0 t (ix3 0 r k) = m ((c : Thread nD τ).loc main_arg0) (ix2 (row (entry t) r) k) := by
  show V m c main_v0 (((cfg0.win 0).blk t).view.emb (ix3 0 r k)) = _
  have he : ((cfg0.win 0).blk t).view.emb (ix3 0 r k) = ix3 (entry t) r k := by
    obtain ⟨e0, e1, e2, -⟩ := idx_facts t
    funext a; apply Fin.ext
    match a with
    | ⟨0, _⟩ => show win0_0.index t (0 : Fin 3) * 1 + 1 * 0 = t.val; omega
    | ⟨1, _⟩ => show win0_0.index t (1 : Fin 3) * 20 + 1 * r.val = r.val; omega
    | ⟨2, _⟩ => show win0_0.index t (2 : Fin 3) * 2048 + 1 * k.val = k.val; omega
  rw [he, V_main_v0]
  exact reshaped_at _ (entry t) r k

/-- The word block at point `t`, at `(0, l, k)`: word `l` of batch entry `t` at feature `k`. -/
theorem words_blk (c : Dev nD) (t : Fin cfg0.N) (l : Fin 1024) (k : Fin 2048) :
    iblk m c 1 t (ix3 0 l k) = m ((c : Thread nD τ).loc main_arg1) (ix3 (entry t) l k) := by
  show V m c main_arg1 (((cfg0.win 1).blk t).view.emb (ix3 0 l k)) = _
  have he : ((cfg0.win 1).blk t).view.emb (ix3 0 l k) = ix3 (entry t) l k := by
    obtain ⟨-, -, -, e0, e1, e2, -⟩ := idx_facts t
    funext a; apply Fin.ext
    match a with
    | ⟨0, _⟩ => show win0_1.index t (0 : Fin 3) * 1 + 1 * 0 = t.val; omega
    | ⟨1, _⟩ => show win0_1.index t (1 : Fin 3) * 1024 + 1 * l.val = l.val; omega
    | ⟨2, _⟩ => show win0_1.index t (2 : Fin 3) * 2048 + 1 * k.val = k.val; omega
  rw [he, V_main_arg1]

/-- Index `(0, 0, l)` of the result block at point `t` is index `(t, 0, l)` of the result array. -/
theorem out_emb (t : Fin cfg0.N) (z0 z1 : Fin 1) (l : Fin 1024) :
    ((cfg0.win 2).blk t).view.emb (ix3 z0 z1 l) = ix3 (entry t) (0 : Fin 1) l := by
  obtain ⟨-, -, -, -, -, -, e0, e1, e2⟩ := idx_facts t
  have h0 := z0.isLt
  have h1 := z1.isLt
  funext a; apply Fin.ext
  match a with
  | ⟨0, _⟩ => show win0_2.index t (0 : Fin 3) * 1 + 1 * z0.val = t.val; omega
  | ⟨1, _⟩ => show win0_2.index t (1 : Fin 3) * 1 + 1 * z1.val = 0; omega
  | ⟨2, _⟩ => show win0_2.index t (2 : Fin 3) * 1024 + 1 * l.val = l.val; omega

/-! ## From the blocks to the array -/

/-- What point `t` writes back is block `t` of `G` of the argument arrays. -/
theorem flushed_eq (c : Dev nD) (t : Fin cfg0.N) :
    (dats m 0 c).flushed 2 t
      = ((cfg0.win 2).blk t).view.read (Elt Ideal) (G (m ((c : Thread nD τ).loc main_arg0)) (m ((c : Thread nD τ).loc main_arg1))) := by
  rw [flushed2]
  unfold out0_2
  rw [View.canon_unit_zero zeros3]
  simp only [View.ld_unit_zero (S := S1x20x2048) zeros3, View.ld_unit_zero (S := S1x1024x2048) zeros3]
  funext j
  obtain ⟨z0, z1, l, rfl⟩ : ∃ (z0 z1 : Fin 1) (l : Fin 1024), j = ix3 z0 z1 l := ⟨j 0, j 1, j 2, eq_ix3 j⟩
  show k0_pay1 (F := Ideal) (iblk m c 0 t) (iblk m c 1 t) (ix3 z0 z1 l)
    = G (m ((c : Thread nD τ).loc main_arg0)) (m ((c : Thread nD τ).loc main_arg1)) (((cfg0.win 2).blk t).view.emb (ix3 z0 z1 l))
  rw [out_emb, G_apply]
  refine (pay_apply (iblk m c 0 t) (iblk m c 1 t) z0 z1 l).trans ?_
  unfold pooled
  refine Finset.fold_congr fun r _ => ?_
  unfold score
  refine Finset.sum_congr rfl fun k _ => ?_
  exact congrArg₂ (· * ·) (regions_blk m c t r k) (words_blk m c t l k)

/-- An index of the result array is in point `t`'s block iff each coordinate is in the block's range on its axis. -/
theorem mem_blk (t : Fin cfg0.N) (i : S64x1x1024.Idx) :
    i ∈ ((cfg0.win 2).blk t).view.set ↔ ∀ a : Fin 3, win0_2.index t a * S1x1x1024.size a ≤ (i a).val
      ∧ (i a).val < win0_2.index t a * S1x1x1024.size a + S1x1x1024.size a := by
  show i ∈ ((View.whole main_v1).slice (win0_2.rect t)).set ↔ _
  rw [View.set_slice_whole, Rect.mem_set_unit]
  exact Iff.rfl

/-- Every index `(b, 0, l)` of the result array is in the block of the point that works on entry `b`. -/
theorem cover (i : S64x1x1024.Idx) :
    ∃ t : Fin cfg0.N, (cfg0.win 2).flush t = true ∧ i ∈ ((cfg0.win 2).blk t).view.set := by
  have h0 : (i 0).val < 64 := (i 0).isLt
  have h1 : (i 1).val < 1 := (i 1).isLt
  have h2 : (i 2).val < 1024 := (i 2).isLt
  obtain ⟨t, ht⟩ : ∃ t : Fin cfg0.N, t.val = (i 0).val := ⟨⟨(i 0).val, lt_of_lt_of_eq h0 N_0.symm⟩, rfl⟩
  refine ⟨t, flush0_2 t, ?_⟩
  rw [mem_blk]
  obtain ⟨-, -, -, -, -, -, e0, e1, e2⟩ := idx_facts t
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 1024 ≤ (i 2).val ∧ (i 2).val < win0_2.index t (2 : Fin 3) * 1024 + 1024; omega

/-- The result array after the run is `G` of the argument arrays. -/
theorem final (c : Dev nD) :
    (dats m 0 c).arrAt 2 cfg0.N = G (m ((c : Thread nD τ).loc main_arg0)) (m ((c : Thread nD τ).loc main_arg1)) :=
  (dats m 0 c).arrAt_eq_of_cover 2 (G (m ((c : Thread nD τ).loc main_arg0)) (m ((c : Thread nD τ).loc main_arg1)))
    (fun t _ => flushed_eq m c t) cover

/-- The kernel's run: every weakly fair execution terminates with the result array at `G` of the arguments and the
    arguments unchanged. -/
theorem run : θ_run defs (onTc (τ := τ) (main (F := Ideal))) ⟨m, fun _ => 0, ρ⟩ fun r => ∀ c : Dev nD,
      r.2.mem ((c : Thread nD τ).loc main_v1) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.Pool.Ker

end
-- ==== Proof.RefSide.lean ====
/-
  The reference's result is the specification `Pool.G`.

  The reference reshapes the region table to [64, 20, 2048] (row `20·b + r` becomes entry `(b, r)`), contracts the feature
  axis of that array against the feature axis of the words, batch entry by batch entry, giving the scores [64, 20, 1024],
  takes the maximum over the region axis from minus infinity, and views the [64, 1024] result as [64, 1, 1024]. Read at
  `(b, 0, l)`: the fold of `max` over `r` of the dot products `score b r l`.
-/
import proofs.«127514_j1202590843020_1_alg».proof.Proof.Gen.ReferenceIdeal.Read
import proofs.«127514_j1202590843020_1_alg».proof.Proof.Spec
import proofs.«127514_j1202590843020_1_alg».proof.Proof.LibMaxAxis

noncomputable section

namespace Cert.Pool.Ref

open Idealize.ShloMosaic Idealize.ShloMosaic.ValueIdx Cert.ReferenceIdeal Cert.ReferenceIdeal.Read Cert.Pool

/-- Entry `(b, r, k)` of the reshaped table is entry `(20·b + r, k)` of the table. -/
theorem reshaped_idx (b : Fin 64) (r : Fin 20) (l : Fin 1024) (k : Fin 2048) :
    idx_main_v0 (lidx_main_v1 (ix3 b r l) k) = ix2 (row b r) k := by
  funext a
  apply Fin.ext
  have hb := b.isLt
  have hr := r.isLt
  have hk := k.isLt
  match a with
  | ⟨0, _⟩ => show ((b.val * 20 + r.val) * 2048 + k.val) / 2048 = b.val * 20 + r.val; omega
  | ⟨1, _⟩ => show ((b.val * 20 + r.val) * 2048 + k.val) % 2048 = k.val; omega

/-- The word read for score `(b, r, l)` at feature `k` is word `l` of batch entry `b`. -/
theorem word_idx (b : Fin 64) (r : Fin 20) (l : Fin 1024) (k : Fin 2048) :
    ridx_main_v1 (ix3 b r l) k = ix3 b l k := by
  funext a
  match a with
  | ⟨0, _⟩ => rfl
  | ⟨1, _⟩ => rfl
  | ⟨2, _⟩ => rfl

/-- The reference's scores are the specification's. -/
theorem scores_apply (x0 : Regions) (x1 : Words) (b : Fin 64) (r : Fin 20) (l : Fin 1024) :
    val_main_v1 (F := Ideal) x0 x1 (ix3 b r l) = score x0 x1 b r l := by
  rw [val_main_v1_apply]
  unfold score
  refine Finset.sum_congr rfl fun k _ => ?_
  rw [val_main_v0_apply, reshaped_idx, word_idx]

/-- The reference's result array is `G` of the arguments. -/
theorem result_eq (x0 : Regions) (x1 : Words) : val_main_v3 (F := Ideal) x0 x1 = G x0 x1 := by
  funext i
  obtain ⟨b, z, l, rfl⟩ : ∃ (b : Fin 64) (z : Fin 1) (l : Fin 1024), i = ix3 b z l := ⟨i 0, i 1, i 2, eq_ix3 i⟩
  rw [val_main_v3_apply, G_apply]
  have hj : idx_main_v3 (ix3 b z l) = ix2 b l := by
    funext a
    match a with
    | ⟨0, _⟩ => rfl
    | ⟨1, _⟩ => rfl
  rw [hj]
  unfold val_main_v2
  refine (Cert.Lib.hostMaxMid3_apply (val_main_v1 (F := Ideal) x0 x1) (val_main_cst (F := Ideal))
    _ (by decide) _ b l).trans ?_
  unfold pooled
  refine Finset.fold_congr fun r _ => scores_apply x0 x1 b r l

end Cert.Pool.Ref

end
-- ==== Proof.lean ====
/- The proof of `Cert.Claim`: region/word similarity scores, max-pooled over the regions.

   Both programs compute, for batch entry `b` and word `l`, the largest over the twenty regions `r` of the dot product
   (over 2048 features) of region row `20·b + r` of the first argument with word `(b, l)` of the second, the maximum
   started from minus infinity (Proof/Spec.lean, `Pool.G`). The kernel works one batch entry per grid point: it multiplies
   the entry's [20, 2048] region block against the rows of its [1024, 2048] word block into a zero accumulator and takes
   the maximum down the columns (Proof/KernelBody.lean reads the stored block at an index; Proof/KernelSide.lean places
   the 64 blocks in the result array). The reference contracts the reshaped [64, 20, 2048] table against the words batch
   entry by batch entry and reduces the region axis with `maximum` (Proof/RefSide.lean). At the ideal values a change of
   float format is the identity, a product into a zero accumulator is the plain sum of products, and a maximum over a finite
   set does not depend on the order it is taken in, so the two results are the same function of the arguments, entry by
   entry; nothing about the inputs being finite is used. The idealization rewrote no operation, so `preserves` is `True`. -/
import proofs.«127514_j1202590843020_1_alg».proof.Defs
import proofs.«127514_j1202590843020_1_alg».proof.Proof.Gen.Kernel
import proofs.«127514_j1202590843020_1_alg».proof.Proof.Gen.Kernel.Skeleton
import proofs.«127514_j1202590843020_1_alg».proof.Proof.Gen.Kernel.Launch
import proofs.«127514_j1202590843020_1_alg».proof.Proof.Gen.Kernel.Points
import proofs.«127514_j1202590843020_1_alg».proof.Proof.Gen.Kernel.Frame
import proofs.«127514_j1202590843020_1_alg».proof.Proof.Gen.KernelIdeal
import proofs.«127514_j1202590843020_1_alg».proof.Proof.Gen.KernelIdeal.Skeleton
import proofs.«127514_j1202590843020_1_alg».proof.Proof.Gen.KernelIdeal.Launch
import proofs.«127514_j1202590843020_1_alg».proof.Proof.Gen.KernelIdeal.Points
import proofs.«127514_j1202590843020_1_alg».proof.Proof.Gen.KernelIdeal.Frame
import proofs.«127514_j1202590843020_1_alg».proof.Proof.Gen.ReferenceIdeal
import proofs.«127514_j1202590843020_1_alg».proof.Proof.Gen.Pre_finite_inputs
import proofs.«127514_j1202590843020_1_alg».proof.Proof.Gen.KernelIdeal.Value
import proofs.«127514_j1202590843020_1_alg».proof.Proof.Gen.ReferenceIdeal.Run
import proofs.«127514_j1202590843020_1_alg».proof.Proof.Gen.ReferenceIdeal.Read
import proofs.«127514_j1202590843020_1_alg».proof.Proof.KernelSide
import proofs.«127514_j1202590843020_1_alg».proof.Proof.RefSide
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at `Pool.G` of the arguments:
    the kernel by its 64 blocks, the reference by its operations read at an index. -/
theorem algebraic : Cert.algebraic_KernelIdeal_ReferenceIdeal := by
  intro m ρ m' ρ' _ hagree
  refine ⟨_, Cert.Pool.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.Pool.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
